-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x58 : Shape := ⟨2, ![100000, 58]⟩
abbrev S2x3200000 : Shape := ⟨2, ![2, 3200000]⟩
abbrev S16x58 : Shape := ⟨2, ![16, 58]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S100000x58 : S_.BroadcastsInDim S100000x58 (![] : Fin 0 → Fin S100000x58.rank)
  reducesTo_S100000x58_S_d0_1 : S100000x58.ReducesTo [0, 1] S_
  h_S_ : 0 < S_.numel
  bcast_S_S16x58 : S_.BroadcastsInDim S16x58 (![] : Fin 0 → Fin S16x58.rank)
  reducesTo_S16x58_S_d0_1 : S16x58.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x58 .f32) (main_arg1 : IVec S2x3200000 32) (main_arg2 : FVec F S16x58 .f32) (main_arg3 : FVec F S16 .f32) (main_arg4 : FVec F S1x16 .f32) (main_arg5 : FVec F S1 .f32) : IVec S_ 1 :=
  let main_v0 : FVec F S100000x58 .f32 := Host.absf main_arg0
  let main_cst : FVec F S_ .f32 := constant S_ .f32 0x7F800000#32
  let main_v1 : FVec F S100000x58 .f32 := broadcastInDim S100000x58 ![] bcast_S_S100000x58 main_cst
  let main_v2 : IVec S100000x58 1 := cmpf .olt main_v0 main_v1
  let main_c : IVec S_ 1 := constantI S_ 1 1#1
  let main_v3 : IVec S_ 1 := (fun x v => Host.reduce IntOp.andi x v reducesTo_S100000x58_S_d0_1 h_S_) main_v2 main_c
  let main_v4 : FVec F S16x58 .f32 := Host.absf main_arg2
  let main_cst_0 : FVec F S_ .f32 := constant S_ .f32 0x7F800000#32
  let main_v5 : FVec F S16x58 .f32 := broadcastInDim S16x58 ![] bcast_S_S16x58 main_cst_0
  let main_v6 : IVec S16x58 1 := cmpf .olt main_v4 main_v5
  let main_c_1 : IVec S_ 1 := constantI S_ 1 1#1
  let main_v7 : IVec S_ 1 := (fun x v => Host.reduce IntOp.andi x v reducesTo_S16x58_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S1x16 .f32 := Host.absf main_arg4
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg5 main_v13 main_v16
-- ==== Kernel.lean ====
abbrev S100000x58 : Shape := ⟨2, ![100000, 58]⟩
abbrev S2x3200000 : Shape := ⟨2, ![2, 3200000]⟩
abbrev S16x58 : Shape := ⟨2, ![16, 58]⟩
abbrev S16 : Shape := ⟨1, ![16]⟩
abbrev S1x16 : Shape := ⟨2, ![1, 16]⟩
abbrev S1 : Shape := ⟨1, ![1]⟩
abbrev S100000x16 : Shape := ⟨2, ![100000, 16]⟩
abbrev S10000x58 : Shape := ⟨2, ![10000, 58]⟩
abbrev S10000x16 : Shape := ⟨2, ![10000, 16]⟩
abbrev S58x16 : Shape := ⟨2, ![58, 16]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S1x1 : Shape := ⟨2, ![1, 1]⟩
abbrev S10000x1 : Shape := ⟨2, ![10000, 1]⟩
abbrev S10000 : Shape := ⟨1, ![10000]⟩

abbrev nBuf : Space → Nat
  | .hbm => 34
  | .vmem => 14
  | .smem => 0
  | _ => 0

abbrev bufTy : (tb : Table) → Fin (tcTables nBuf tb) → BufTy
  | .hbm, ⟨0, _⟩ => ⟨S100000x58, .f32⟩
  | .hbm, ⟨1, _⟩ => ⟨S2x3200000, .i32⟩
  | .hbm, ⟨2, _⟩ => ⟨S16x58, .f32⟩
  | .hbm, ⟨3, _⟩ => ⟨S16, .f32⟩
  | .hbm, ⟨4, _⟩ => ⟨S1x16, .f32⟩
  | .hbm, ⟨5, _⟩ => ⟨S1, .f32⟩
  | .hbm, ⟨6, _⟩ => ⟨S100000x16, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x16, .f32⟩
  | .hbm, ⟨20, _⟩ => ⟨S_, .f32⟩
  | .hbm, ⟨21, _⟩ => ⟨S100000x16, .f32⟩
  | .hbm, ⟨22, _⟩ => ⟨S3200000x1, .i32⟩
  | .hbm, ⟨23, _⟩ => ⟨S100000x16, .f32⟩
  | .hbm, ⟨24, _⟩ => ⟨S_, .f32⟩
  | .hbm, ⟨25, _⟩ => ⟨S3200000, .f32⟩
  | .hbm, ⟨26, _⟩ => ⟨S_, .f32⟩
  | .hbm, ⟨27, _⟩ => ⟨S100000, .f32⟩
  | .hbm, ⟨28, _⟩ => ⟨S3200000x1, .i32⟩
  | .hbm, ⟨29, _⟩ => ⟨S100000, .f32⟩
  | .hbm, ⟨30, _⟩ => ⟨S100000x1, .f32⟩
  | .hbm, ⟨31, _⟩ => ⟨S1x16, .f32⟩
  | .hbm, ⟨32, _⟩ => ⟨S1x1, .f32⟩
  | .hbm, ⟨33, _⟩ => ⟨S100000x1, .f32⟩
  | .local _ .vmem, ⟨0, _⟩ => ⟨S10000x58, .f32⟩
  | .local _ .vmem, ⟨1, _⟩ => ⟨S10000x58, .f32⟩
  | .local _ .vmem, ⟨2, _⟩ => ⟨S16x58, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x1, .f32⟩
  | .local _ .vmem, ⟨8, _⟩ => ⟨S10000x1, .f32⟩
  | .local _ .vmem, ⟨9, _⟩ => ⟨S1x16, .f32⟩
  | .local _ .vmem, ⟨10, _⟩ => ⟨S1x16, .f32⟩
  | .local _ .vmem, ⟨11, _⟩ => ⟨S1x1, .f32⟩
  | .local _ .vmem, ⟨12, _⟩ => ⟨S10000x1, .f32⟩
  | .local _ .vmem, ⟨13, _⟩ => ⟨S10000x1, .f32⟩
  | _, _ => ⟨S100000x58, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x58 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S10000x58_S10000x58_0_0 : ∀ a, (![0, 0] : Fin 2 → Nat) a + S10000x58.size a ≤ S10000x58.size a
  h_S10000x58 : 0 < S10000x58.numel
  bitsLt_bf16_f32 : FTy.bits .bf16 < FTy.bits .f32
  inb_S16x58_S16x58_0_0 : ∀ a, (![0, 0] : Fin 2 → Nat) a + S16x58.size a ≤ S16x58.size a
  h_S16x58 : 0 < S16x58.numel
  transposes_S16x58_p1_0_S58x16 : S16x58.Transposes [1, 0] S58x16
  inb_S10000x16_S10000x16_0_0 : ∀ a, (![0, 0] : Fin 2 → Nat) a + S10000x16.size a ≤ S10000x16.size a
  h_S10000x16 : 0 < S10000x16.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S16_S1x16 : S16.ShapeCasts S1x16
  shapeCasts_S1_S1x1 : S1.ShapeCasts S1x1
  shapeCasts_S10000x16_S10000x16 : S10000x16.ShapeCasts S10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  dot_S10000x58_S58x16_S10000x16_1_0_0_1_n_n_wf : DotDims.WF S10000x58 S58x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x58.size a ≤ S100000x58.size a
  hwx0_0 : ∀ i : grid0.Coords, EltTy.bits .f32 = 32 ∨ (Rect.block (s := S100000x58) S10000x58.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x58.size a ≤ S16x58.size a
  hwx0_1 : ∀ i : grid0.Coords, EltTy.bits .f32 = 32 ∨ (Rect.block (s := S16x58) S16x58.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x1.size a ≤ S100000x1.size a
  hwx1_5 : ∀ i : grid1.Coords, EltTy.bits .f32 = 32 ∨ (Rect.block (s := S100000x1) S10000x1.size (cc1_transform_5 i) (hinb1_5 i)).WholeWords (EltTy.packing .f32)

variable [Facts₀]

def dot_S10000x58_S58x16_S10000x16_1_0_0_1_n_n : DotDims S10000x58 S58x16 S10000x16 where
  lhsContracting := [1]
  rhsContracting := [0]
  lhsNonContracting := [0]
  rhsNonContracting := [1]
  lhsBatch := []
  rhsBatch := []
  wf := dot_S10000x58_S58x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_arg0) S10000x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x58.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S10000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x58 : Shape := ⟨2, ![100000, 58]⟩
abbrev S2x3200000 : Shape := ⟨2, ![2, 3200000]⟩
abbrev S16x58 : Shape := ⟨2, ![16, 58]⟩
abbrev S16 : Shape := ⟨1, ![16]⟩
abbrev S1x16 : Shape := ⟨2, ![1, 16]⟩
abbrev S1 : Shape := ⟨1, ![1]⟩
abbrev S58x16 : Shape := ⟨2, ![58, 16]⟩
abbrev S100000x16 : Shape := ⟨2, ![100000, 16]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S16x1 : Shape := ⟨2, ![16, 1]⟩
abbrev S1x1 : Shape := ⟨2, ![1, 1]⟩

abbrev nBuf : Space → Nat
  | .hbm => 48
  | .vmem => 0
  | .smem => 0
  | _ => 0

abbrev bufTy : (tb : Table) → Fin (tcTables nBuf tb) → BufTy
  | .hbm, ⟨0, _⟩ => ⟨S100000x58, .f32⟩
  | .hbm, ⟨1, _⟩ => ⟨S2x3200000, .i32⟩
  | .hbm, ⟨2, _⟩ => ⟨S16x58, .f32⟩
  | .hbm, ⟨3, _⟩ => ⟨S16, .f32⟩
  | .hbm, ⟨4, _⟩ => ⟨S1x16, .f32⟩
  | .hbm, ⟨5, _⟩ => ⟨S1, .f32⟩
  | .hbm, ⟨6, _⟩ => ⟨S58x16, .f32⟩
  | .hbm, ⟨7, _⟩ => ⟨S100000x16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x16, .f32⟩
  | .hbm, ⟨21, _⟩ => ⟨S_, .f32⟩
  | .hbm, ⟨22, _⟩ => ⟨S100000x16, .f32⟩
  | .hbm, ⟨23, _⟩ => ⟨S3200000x1, .i32⟩
  | .hbm, ⟨24, _⟩ => ⟨S100000x16, .f32⟩
  | .hbm, ⟨25, _⟩ => ⟨S_, .f32⟩
  | .hbm, ⟨26, _⟩ => ⟨S3200000, .f32⟩
  | .hbm, ⟨27, _⟩ => ⟨S_, .f32⟩
  | .hbm, ⟨28, _⟩ => ⟨S100000, .f32⟩
  | .hbm, ⟨29, _⟩ => ⟨S3200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x16, .f32⟩
  | .hbm, ⟨36, _⟩ => ⟨S100000x16, .f32⟩
  | .hbm, ⟨37, _⟩ => ⟨S1x16, .f32⟩
  | .hbm, ⟨38, _⟩ => ⟨S100000x16, .f32⟩
  | .hbm, ⟨39, _⟩ => ⟨S100000x16, .f32⟩
  | .hbm, ⟨40, _⟩ => ⟨S_, .f32⟩
  | .hbm, ⟨41, _⟩ => ⟨S100000x16, .f32⟩
  | .hbm, ⟨42, _⟩ => ⟨S100000x16, .f32⟩
  | .hbm, ⟨43, _⟩ => ⟨S16x1, .f32⟩
  | .hbm, ⟨44, _⟩ => ⟨S100000x1, .f32⟩
  | .hbm, ⟨45, _⟩ => ⟨S1x1, .f32⟩
  | .hbm, ⟨46, _⟩ => ⟨S100000x1, .f32⟩
  | .hbm, ⟨47, _⟩ => ⟨S100000x1, .f32⟩
  | _, _ => ⟨S100000x58, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  transposes_S16x58_S58x16_1_0 : S16x58.Transposes [1, 0] S58x16
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  transposes_S1x16_S16x1_1_0 : S1x16.Transposes [1, 0] S16x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x58_S58x16_S100000x16_1_0_0_1_n_n_wf : DotDims.WF S100000x58 S58x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S100000x16_S16x1_S100000x1_1_0_0_1_n_n_wf : DotDims.WF S100000x16 S16x1 S100000x1 [1] [0] [0] [1] [] []

variable [Facts₀]

def dot_S100000x58_S58x16_S100000x16_1_0_0_1_n_n : DotDims S100000x58 S58x16 S100000x16 where
  lhsContracting := [1]
  rhsContracting := [0]
  lhsNonContracting := [0]
  rhsNonContracting := [1]
  lhsBatch := []
  rhsBatch := []
  wf := dot_S100000x58_S58x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.Spec.lean ====
/-
  What the two-layer network computes, as whole-array functions over the extended reals.

  Layer one is a plain matrix product: entry (r, j) of `lin x w` is the sum over the 58 input features of
  x[r, k] · w[j, k]. Between the layers the rows are gathered along the edges and summed per destination node; that
  aggregation is the same text in both programs and is never opened here. Layer two works row by row: the aggregated
  row is divided by max(count, 1), the bias row is added, negatives are clipped to zero, and the result is contracted
  against the single row of the second weight matrix, plus the second bias.
-/
import proofs.«162916_j14491219656875_1_alg».proof.KernelIdeal
import Idealize.ShloMosaic.PureOps.Ideal
import Idealize.ShloMosaic.Lib.ValueIdx

noncomputable section

namespace Cert.Pmlp

open Idealize.ShloMosaic Idealize.ShloMosaic.ValueIdx Cert.KernelIdeal

/-- Layer one, `x · wᵀ`: entry (r, j) is Σₖ x[r, k] · w[j, k] over the 58 features. -/
def lin (x : FVec Ideal S100000x58 .f32) (w : FVec Ideal S16x58 .f32) : FVec Ideal S100000x16 .f32 :=
  fun i => ∑ k : Fin 58, x (ix2 (⟨(i 0).val, (i 0).isLt⟩ : Fin 100000) k) * w (ix2 (⟨(i 1).val, (i 1).isLt⟩ : Fin 16) k)

/-- One row of layer two: Σₖ max(s[k] / max(n, 1) + b[k], 0) · w[k] + c, for a row `s` of aggregated features,
    its edge count `n`, the bias row `b`, the weight row `w` and the output bias `c`. -/
def headRow (s : Fin 16 → Ideal .f32) (n : Ideal .f32) (b w : Fin 16 → Ideal .f32) (c : Ideal .f32) : Ideal .f32 :=
  (∑ k : Fin 16, max (Ideal.div (s k) (max n (Ideal.ofBits .f32 0x3F800000#32)) + b k) (Ideal.ofBits .f32 0x00000000#32) * w k) + c

/-- Layer two over all nodes: row r of the output is `headRow` of row r of the aggregated features and of the
    count column, against the one bias row, the one weight row and the one output bias. -/
def head (s : FVec Ideal S100000x16 .f32) (cnt : FVec Ideal S100000x1 .f32) (b1 : FVec Ideal S1x16 .f32)
    (w2 : FVec Ideal S1x16 .f32) (b2 : FVec Ideal S1x1 .f32) : FVec Ideal S100000x1 .f32 :=
  fun i => headRow (fun k => s (ix2 (⟨(i 0).val, (i 0).isLt⟩ : Fin 100000) k)) (cnt (ix2 (⟨(i 0).val, (i 0).isLt⟩ : Fin 100000) (0 : Fin 1)))
    (fun k => b1 (ix2 (0 : Fin 1) k)) (fun k => w2 (ix2 (0 : Fin 1) k)) (b2 (ix2 (0 : Fin 1) (0 : Fin 1)))

end Cert.Pmlp

end
-- ==== Proof.Linear1.lean ====
/-
  The first kernel region, read as a value: its ten grid points each multiply a block of 10000 rows of `x` against all
  of `W1` (transposed inside the block), so the array the region leaves behind is the plain matrix product
  `Pmlp.lin x W1`, row block by row block.
-/
import proofs.«162916_j14491219656875_1_alg».proof.Proof.Gen.KernelIdeal.Frame
import proofs.«162916_j14491219656875_1_alg».proof.Proof.Spec

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Linear1

open Idealize.ShloMosaic Idealize.ShloMosaic.TcCoe Idealize.ShloMosaic.ValueIdx Idealize.SL.Sem
open Cert.KernelIdeal Cert.KernelIdeal.Gen
open Idealize.ShloMosaic.Pipeline (Dat Cfg Window)

/-! ## One block: the matrix product of a row block against the transposed weights, entry by entry -/

theorem lhs_blk_0 (i : S10000x16.Idx) (q : dot_S10000x58_S58x16_S10000x16_1_0_0_1_n_n.contr.Idx) :
    (dot_S10000x58_S58x16_S10000x16_1_0_0_1_n_n.lhsIdx i q 0).val = (i 0).val := by
  unfold DotDims.lhsIdx
  rw [dif_neg (show ¬(0 : Fin S10000x58.rank) ∈ dot_S10000x58_S58x16_S10000x16_1_0_0_1_n_n.lhsBatch by decide), dif_pos (show (0 : Fin S10000x58.rank) ∈ dot_S10000x58_S58x16_S10000x16_1_0_0_1_n_n.lhsNonContracting by decide)]
  rfl
theorem lhs_blk_1 (i : S10000x16.Idx) (q : dot_S10000x58_S58x16_S10000x16_1_0_0_1_n_n.contr.Idx) :
    (dot_S10000x58_S58x16_S10000x16_1_0_0_1_n_n.lhsIdx i q 1).val = (q ⟨0, by decide⟩).val :=
  dot_S10000x58_S58x16_S10000x16_1_0_0_1_n_n.lhsIdx_val_of_single rfl i q
theorem rhs_blk_0 (i : S10000x16.Idx) (q : dot_S10000x58_S58x16_S10000x16_1_0_0_1_n_n.contr.Idx) :
    (dot_S10000x58_S58x16_S10000x16_1_0_0_1_n_n.rhsIdx i q 0).val = (q ⟨0, by decide⟩).val :=
  dot_S10000x58_S58x16_S10000x16_1_0_0_1_n_n.rhsIdx_val_of_single rfl i q
theorem rhs_blk_1 (i : S10000x16.Idx) (q : dot_S10000x58_S58x16_S10000x16_1_0_0_1_n_n.contr.Idx) :
    (dot_S10000x58_S58x16_S10000x16_1_0_0_1_n_n.rhsIdx i q 1).val = (i 1).val := by
  unfold DotDims.rhsIdx
  rw [dif_neg (show ¬(1 : Fin S58x16.rank) ∈ dot_S10000x58_S58x16_S10000x16_1_0_0_1_n_n.rhsBatch by decide), dif_pos (show (1 : Fin S58x16.rank) ∈ dot_S10000x58_S58x16_S10000x16_1_0_0_1_n_n.rhsNonContracting by decide)]
  rfl

theorem pay_apply (v0 : Vec Ideal S10000x58 .f32) (v2 : Vec Ideal S16x58 .f32) (p : Fin 10000) (j : Fin 16) :
    k0_pay1 (F := Ideal) v0 v2 (ix2 p j) = ∑ k : Fin 58, v0 (ix2 p k) * v2 (ix2 j k) := by
  unfold k0_pay1
  refine (Ideal.matmul_constant_zero_apply dot_S10000x58_S58x16_S10000x16_1_0_0_1_n_n none _ _ (ix2 p j)).trans ?_
  rw [← Equiv.sum_comp (ValueIdx.contrEquiv1 dot_S10000x58_S58x16_S10000x16_1_0_0_1_n_n 58 rfl rfl).symm]
  refine Finset.sum_congr rfl fun k _ => ?_
  have hk := ValueIdx.contrEquiv1_symm_val dot_S10000x58_S58x16_S10000x16_1_0_0_1_n_n 58 rfl rfl k
  have el : dot_S10000x58_S58x16_S10000x16_1_0_0_1_n_n.lhsIdx (ix2 p j) ((ValueIdx.contrEquiv1 dot_S10000x58_S58x16_S10000x16_1_0_0_1_n_n 58 rfl rfl).symm k) = ix2 p k := funext fun a => Fin.ext (by
    match a with
    | ⟨0, _⟩ => exact lhs_blk_0 _ _
    | ⟨1, _⟩ => exact (lhs_blk_1 _ _).trans hk)
  have er : dot_S10000x58_S58x16_S10000x16_1_0_0_1_n_n.rhsIdx (ix2 p j) ((ValueIdx.contrEquiv1 dot_S10000x58_S58x16_S10000x16_1_0_0_1_n_n 58 rfl rfl).symm k) = ix2 k j := funext fun a => Fin.ext (by
    match a with
    | ⟨0, _⟩ => exact (rhs_blk_0 _ _).trans hk
    | ⟨1, _⟩ => exact rhs_blk_1 _ _)
  rw [el, er, transpose_ix2_apply]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the row blocks of `x` and of the result move with `t`, the
    weights stay put. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the matrix product of the arrays the region found. -/
theorem flushed_eq (c : Dev nD) (t : Fin cfg0.N) :
    (dat0 V c).flushed 2 t = ((cfg0.win 2).blk t).view.read (Elt Ideal) (Pmlp.lin (V c main_arg0) (V c main_arg2)) := by
  show (cfg0.win 2).cut (grid0.coords t) ((dat0 V c).after 2 t) = _
  rw [after0_2]
  unfold out0_2
  rw [View.canon_unit_zero hz]
  simp only [View.ld_unit_zero (S := S10000x58) hz, View.ld_unit_zero (S := S16x58) hz]
  obtain ⟨e00, e01, e10, e11, e20, e21⟩ := idx_facts t
  funext y
  obtain ⟨p, j, rfl⟩ : ∃ (p : Fin 10000) (j : Fin 16), y = ix2 p j := ⟨y 0, y 1, eq_ix2 y⟩
  show k0_pay1 (F := Ideal) (iblk0 V c 0 t) (iblk0 V c 1 t) (ix2 p j)
    = Pmlp.lin (V c main_arg0) (V c main_arg2) (((cfg0.win 2).blk t).view.emb (ix2 p j))
  refine (pay_apply _ _ p j).trans ?_
  unfold Pmlp.lin
  refine Finset.sum_congr rfl fun k _ => ?_
  have hx : iblk0 V c 0 t (ix2 p k)
      = V c main_arg0 (ix2 (⟨((((cfg0.win 2).blk t).view.emb (ix2 p j)) 0).val, ((((cfg0.win 2).blk t).view.emb (ix2 p j)) 0).isLt⟩ : Fin 100000) k) := by
    show V c main_arg0 (((cfg0.win 0).blk t).view.emb (ix2 p k)) = _
    refine congrArg _ (funext fun a => Fin.ext ?_)
    match a with
    | ⟨0, _⟩ =>
      show win0_0.index t (0 : Fin 2) * 10000 + 1 * p.val = win0_2.index t (0 : Fin 2) * 10000 + 1 * p.val
      omega
    | ⟨1, _⟩ =>
      show win0_0.index t (1 : Fin 2) * 58 + 1 * k.val = k.val
      omega
  have hw : iblk0 V c 1 t (ix2 j k)
      = V c main_arg2 (ix2 (⟨((((cfg0.win 2).blk t).view.emb (ix2 p j)) 1).val, ((((cfg0.win 2).blk t).view.emb (ix2 p j)) 1).isLt⟩ : Fin 16) k) := by
    show V c main_arg2 (((cfg0.win 1).blk t).view.emb (ix2 j k)) = _
    refine congrArg _ (funext fun a => Fin.ext ?_)
    match a with
    | ⟨0, _⟩ =>
      show win0_1.index t (0 : Fin 2) * 16 + 1 * j.val = win0_2.index t (1 : Fin 2) * 16 + 1 * j.val
      omega
    | ⟨1, _⟩ =>
      show win0_1.index t (1 : Fin 2) * 58 + 1 * k.val = k.val
      omega
  rw [hx, hw]

/-- An index of the result array is in point `t`'s block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

/-- The ten row blocks cover the array: row `r` lies in the block of point `r / 10000`. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : (i 0).val / 10000 < cfg0.N := by show _ < grid0.N; rw [N_0]; omega
  refine ⟨⟨(i 0).val / 10000, hN⟩, flush0_2 _, ?_⟩
  rw [mem_blk]
  obtain ⟨-, -, -, -, e20, e21⟩ := idx_facts ⟨(i 0).val / 10000, hN⟩
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e20]
    show (i 0).val / 10000 * 10000 ≤ (i 0).val ∧ (i 0).val < (i 0).val / 10000 * 10000 + 10000
    omega
  | ⟨1, _⟩ =>
    show win0_2.index ⟨(i 0).val / 10000, hN⟩ (1 : Fin 2) * 16 ≤ (i 1).val ∧ (i 1).val < win0_2.index ⟨(i 0).val / 10000, hN⟩ (1 : Fin 2) * 16 + 16
    omega

/-- The array the first region leaves: the matrix product of the arrays it found. -/
theorem final (c : Dev nD) : (dat0 V c).arrAt 2 cfg0.N = Pmlp.lin (V c main_arg0) (V c main_arg2) :=
  (dat0 V c).arrAt_eq_of_cover 2 _ (fun t _ => flushed_eq V c t) cover

end Cert.KernelIdeal.Linear1

end
-- ==== Proof.Stage2.lean ====
/-
  The second kernel region, read as a value: each of its ten grid points takes a block of 10000 rows of the aggregated
  features and of the count column, divides each row by max(count, 1), adds the bias row, clips at zero, and contracts
  against the weight row (a sum along the 16 lanes) plus the output bias. The array it leaves behind is `Pmlp.head`
  of the arrays the region found, row block by row block.
-/
import proofs.«162916_j14491219656875_1_alg».proof.Proof.Gen.KernelIdeal.Frame
import proofs.«162916_j14491219656875_1_alg».proof.Proof.Spec

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage2

open Idealize.ShloMosaic Idealize.ShloMosaic.TcCoe Idealize.ShloMosaic.ValueIdx Idealize.SL.Sem
open Cert.KernelIdeal Cert.KernelIdeal.Gen
open Idealize.ShloMosaic.Pipeline (Dat Cfg Window)

/-! ## One block: the body's stored value at row `q` -/

/-- The reduced index `q` with lane `k` put back is `(q, k)`. -/
theorem lift_row (h : S10000x16.Reduces [1] S10000) (q : Fin 10000) (k : Fin (S10000x16.size 1)) :
    h.lift (ix1 q) k = ix2 q (⟨k.val, k.isLt⟩ : Fin 16) := by
  funext c; apply Fin.ext
  fin_cases c <;> rfl

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `q` of the body's result: the lane sum of the clipped, normalised, biased row against the weight row, plus the
    output bias. -/
theorem pay_apply (v0 : Vec Ideal S10000x16 .f32) (v2 : Vec Ideal S10000x1 .f32) (v8 v14 : Vec Ideal S1x16 .f32) (v19 : Vec Ideal S1x1 .f32) (q : Fin 10000) :
    k1_pay1 (F := Ideal) v0 v2 v8 v14 v19 (ix2 q (0 : Fin 1))
      = (∑ k : Fin 16, max (Ideal.div (v0 (ix2 q k)) (max (v2 (ix2 q (0 : Fin 1))) (Ideal.ofBits .f32 0x3F800000#32)) + v8 (ix2 (0 : Fin 1) k)) (Ideal.ofBits .f32 0x00000000#32) * v14 (ix2 (0 : Fin 1) k)) + v19 (ix2 (0 : Fin 1) (0 : Fin 1)) := by
  unfold k1_pay1
  simp only [shapeCast_self]
  refine congrArg₂ (fun x y : Ideal .f32 => x + y) ?_ ?_
  · refine (shapeCast_apply _ shapeCasts_S10000_S10000x1 (ix2 q (0 : Fin 1)) (ix1 q) ?_).trans ?_
    · rw [Shape.rowMajor_val_one, Shape.rowMajor_val_two]
      show q.val = q.val * 1 + 0
      omega
    refine (Ideal.multiReduction_add_single _ _ reduces_S10000x16_S10000 _ _ (ix1 q)).trans ?_
    refine Finset.sum_congr rfl fun k _ => ?_
    refine (congrArg _ (lift_row reduces_S10000x16_S10000 q k)).trans ?_
    show max (Ideal.div (v0 (ix2 q (⟨k.val, k.isLt⟩ : Fin 16))) (broadcastTo S10000x16 (maximumf (F := Ideal) v2 (broadcast S10000x1 (FloatOps.ofBits (F := Ideal) FTy.f32 0x3F800000#32))) broadcasts_S10000x1_S10000x16 (ix2 q (⟨k.val, k.isLt⟩ : Fin 16)))
        + broadcastTo S10000x16 v8 broadcasts_S1x16_S10000x16 (ix2 q (⟨k.val, k.isLt⟩ : Fin 16))) (Ideal.ofBits .f32 0x00000000#32)
        * broadcastTo S10000x16 v14 broadcasts_S1x16_S10000x16 (ix2 q (⟨k.val, k.isLt⟩ : Fin 16)) = _
    rw [broadcastTo_1b_ab_apply, broadcastTo_1b_ab_apply, broadcastTo_a1_ab_apply]
    rfl
  · exact broadcastTo_1b_ab_apply v19 broadcasts_S1x1_S10000x1 q (0 : Fin 1)

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at grid point `t`: the row blocks of the features, of the counts and of the result
    move with `t`; the bias row, the weight row and the output bias stay put. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What grid point `t` writes back is block `t` of `Pmlp.head` of the arrays the region found. -/
theorem flushed_eq (c : Dev nD) (t : Fin cfg1.N) :
    (dat1 V c).flushed 5 t = ((cfg1.win 5).blk t).view.read (Elt Ideal)
      (Pmlp.head (V c main_v14) (V c main_v19) (V c main_v20) (V c main_arg4) (V c main_v21)) := by
  show (cfg1.win 5).cut (grid1.coords t) ((dat1 V c).after 5 t) = _
  rw [after1_5]
  unfold out1_5
  rw [View.canon_unit_zero hz]
  simp only [View.ld_unit_zero (S := S10000x16) hz, View.ld_unit_zero (S := S10000x1) hz,
    View.ld_unit_zero (S := S1x16) hz, View.ld_unit_zero (S := S1x1) hz]
  obtain ⟨e00, e01, e10, e11, e20, e21, e30, e31, e40, e41, e50, e51⟩ := idx_facts t
  funext y
  obtain ⟨q, z, rfl⟩ : ∃ (q : Fin 10000) (z : Fin 1), y = ix2 q z := ⟨y 0, y 1, eq_ix2 y⟩
  obtain rfl : z = 0 := Fin.ext (by have := z.isLt; omega)
  show k1_pay1 (F := Ideal) (iblk1 V c 0 t) (iblk1 V c 1 t) (iblk1 V c 2 t) (iblk1 V c 3 t) (iblk1 V c 4 t) (ix2 q (0 : Fin 1))
    = Pmlp.head (V c main_v14) (V c main_v19) (V c main_v20) (V c main_arg4) (V c main_v21) (((cfg1.win 5).blk t).view.emb (ix2 q (0 : Fin 1)))
  refine (pay_apply _ _ _ _ _ q).trans ?_
  unfold Pmlp.head Pmlp.headRow
  have hs : ∀ k : Fin 16, iblk1 V c 0 t (ix2 q k)
      = V c main_v14 (ix2 (⟨((((cfg1.win 5).blk t).view.emb (ix2 q (0 : Fin 1))) 0).val, ((((cfg1.win 5).blk t).view.emb (ix2 q (0 : Fin 1))) 0).isLt⟩ : Fin 100000) k) := fun k => by
    show V c main_v14 (((cfg1.win 0).blk t).view.emb (ix2 q k)) = _
    refine congrArg _ (funext fun a => Fin.ext ?_)
    match a with
    | ⟨0, _⟩ =>
      show win1_0.index t (0 : Fin 2) * 10000 + 1 * q.val = win1_5.index t (0 : Fin 2) * 10000 + 1 * q.val
      omega
    | ⟨1, _⟩ =>
      show win1_0.index t (1 : Fin 2) * 16 + 1 * k.val = k.val
      omega
  have hn : iblk1 V c 1 t (ix2 q (0 : Fin 1))
      = V c main_v19 (ix2 (⟨((((cfg1.win 5).blk t).view.emb (ix2 q (0 : Fin 1))) 0).val, ((((cfg1.win 5).blk t).view.emb (ix2 q (0 : Fin 1))) 0).isLt⟩ : Fin 100000) (0 : Fin 1)) := by
    show V c main_v19 (((cfg1.win 1).blk t).view.emb (ix2 q (0 : Fin 1))) = _
    refine congrArg _ (funext fun a => Fin.ext ?_)
    match a with
    | ⟨0, _⟩ =>
      show win1_1.index t (0 : Fin 2) * 10000 + 1 * q.val = win1_5.index t (0 : Fin 2) * 10000 + 1 * q.val
      omega
    | ⟨1, _⟩ =>
      show win1_1.index t (1 : Fin 2) * 1 + 1 * 0 = 0
      omega
  have hb : ∀ k : Fin 16, iblk1 V c 2 t (ix2 (0 : Fin 1) k) = V c main_v20 (ix2 (0 : Fin 1) k) := fun k => by
    show V c main_v20 (((cfg1.win 2).blk t).view.emb (ix2 (0 : Fin 1) k)) = _
    refine congrArg _ (funext fun a => Fin.ext ?_)
    match a with
    | ⟨0, _⟩ =>
      show win1_2.index t (0 : Fin 2) * 1 + 1 * 0 = 0
      omega
    | ⟨1, _⟩ =>
      show win1_2.index t (1 : Fin 2) * 16 + 1 * k.val = k.val
      omega
  have hw : ∀ k : Fin 16, iblk1 V c 3 t (ix2 (0 : Fin 1) k) = V c main_arg4 (ix2 (0 : Fin 1) k) := fun k => by
    show V c main_arg4 (((cfg1.win 3).blk t).view.emb (ix2 (0 : Fin 1) k)) = _
    refine congrArg _ (funext fun a => Fin.ext ?_)
    match a with
    | ⟨0, _⟩ =>
      show win1_3.index t (0 : Fin 2) * 1 + 1 * 0 = 0
      omega
    | ⟨1, _⟩ =>
      show win1_3.index t (1 : Fin 2) * 16 + 1 * k.val = k.val
      omega
  have hc : iblk1 V c 4 t (ix2 (0 : Fin 1) (0 : Fin 1)) = V c main_v21 (ix2 (0 : Fin 1) (0 : Fin 1)) := by
    show V c main_v21 (((cfg1.win 4).blk t).view.emb (ix2 (0 : Fin 1) (0 : Fin 1))) = _
    refine congrArg _ (funext fun a => Fin.ext ?_)
    match a with
    | ⟨0, _⟩ =>
      show win1_4.index t (0 : Fin 2) * 1 + 1 * 0 = 0
      omega
    | ⟨1, _⟩ =>
      show win1_4.index t (1 : Fin 2) * 1 + 1 * 0 = 0
      omega
  refine congrArg₂ (fun x y : Ideal .f32 => x + y) (Finset.sum_congr rfl fun k _ => ?_) hc
  rw [hs k, hn, hb k, hw k]

/-- An index of the result array is in point `t`'s block iff each coordinate is in the block's range on its axis. -/
theorem mem_blk (t : Fin cfg1.N) (i : S100000x1.Idx) :
    i ∈ ((cfg1.win 5).blk t).view.set ↔ ∀ a : Fin 2, win1_5.index t a * S10000x1.size a ≤ (i a).val ∧ (i a).val < win1_5.index t a * S10000x1.size a + S10000x1.size a := by
  show i ∈ ((View.whole main_v22).slice (win1_5.rect t)).set ↔ _
  rw [View.set_slice_whole, Rect.mem_set_unit]
  exact Iff.rfl

/-- The ten row blocks cover the array: row `r` lies in the block of point `r / 10000`. -/
theorem cover (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  have hN : (i 0).val / 10000 < cfg1.N := by show _ < grid1.N; rw [N_1]; omega
  refine ⟨⟨(i 0).val / 10000, hN⟩, flush1_5 _, ?_⟩
  rw [mem_blk]
  obtain ⟨-, -, -, -, -, -, -, -, -, -, e50, e51⟩ := idx_facts ⟨(i 0).val / 10000, hN⟩
  intro a
  match a with
  | ⟨0, _⟩ =>
    show win1_5.index ⟨(i 0).val / 10000, hN⟩ (0 : Fin 2) * 10000 ≤ (i 0).val ∧ (i 0).val < win1_5.index ⟨(i 0).val / 10000, hN⟩ (0 : Fin 2) * 10000 + 10000
    rw [e50]
    show (i 0).val / 10000 * 10000 ≤ (i 0).val ∧ (i 0).val < (i 0).val / 10000 * 10000 + 10000
    omega
  | ⟨1, _⟩ =>
    show win1_5.index ⟨(i 0).val / 10000, hN⟩ (1 : Fin 2) * 1 ≤ (i 1).val ∧ (i 1).val < win1_5.index ⟨(i 0).val / 10000, hN⟩ (1 : Fin 2) * 1 + 1
    omega

/-- The array the second region leaves: `Pmlp.head` of the arrays it found. -/
theorem final (c : Dev nD) : (dat1 V c).arrAt 5 cfg1.N
    = Pmlp.head (V c main_v14) (V c main_v19) (V c main_v20) (V c main_arg4) (V c main_v21) :=
  (dat1 V c).arrAt_eq_of_cover 5 _ (fun t _ => flushed_eq V c t) cover

end Cert.KernelIdeal.Stage2

end
-- ==== Proof.Aggregate.lean ====
/-
  The aggregation between the two layers, as one function of the layer-one features and the edge list. Row 0 of the
  edge list holds source nodes and row 1 destination nodes. A negative source index is shifted up by the node count, the
  source rows are gathered, and each gathered row is added into its destination node's row; the same scatter of ones
  counts the edges arriving at each node. Both programs spell this with the same operations, so it is kept closed:
  nothing below reads a gathered or scattered element.
-/
import proofs.«162916_j14491219656875_1_alg».proof.KernelIdeal

noncomputable section

namespace Cert.Pmlp

open Idealize.ShloMosaic Cert.KernelIdeal

variable {F : FTy → Type} [FloatOps F] [Facts]
open Facts₀ Facts

/-- Row `r` of the edge list as a flat vector of 3200000 node indices. -/
def srcRow (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000
def dstRow (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- The destination indices as a column. -/
def dstCol (e : (⟨S2x3200000, .i32⟩ : BufTy).Contents (Elt F)) : (⟨S3200000x1, .i32⟩ : BufTy).Contents (Elt F) :=
  broadcastInDim S3200000x1 ![0] bcast_S3200000_S3200000x1_0 (dstRow e)

/-- The source indices as a column, a negative index first shifted up by the number of nodes. -/
def srcCol (e : (⟨S2x3200000, .i32⟩ : BufTy).Contents (Elt F)) : (⟨S3200000x1, .i32⟩ : BufTy).Contents (Elt F) :=
  broadcastInDim S3200000x1 ![0] bcast_S3200000_S3200000x1_0
    (select (cmpi .slt (srcRow e) (broadcastInDim S3200000 ![] bcast_S_S3200000 (constantI S_ 32 0#32)))
      (addi (srcRow e) (broadcastInDim S3200000 ![] bcast_S_S3200000 (constantI S_ 32 100000#32)))
      (srcRow e))

/-- Per destination node, the sum of the feature rows of its incoming edges' source nodes. -/
def aggSum (h : (⟨S100000x16, .f32⟩ : BufTy).Contents (Elt F)) (e : (⟨S2x3200000, .i32⟩ : BufTy).Contents (Elt F)) :
    (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (dstCol e)
    (Host.gather gather_S100000x16_S3200000x1_S3200000x16_1_0_n_n_0_1_116 h (srcCol e))

/-- Per destination node, the number of its incoming edges. -/
def aggCnt (e : (⟨S2x3200000, .i32⟩ : BufTy).Contents (Elt F)) : (⟨S100000, .f32⟩ : BufTy).Contents (Elt F) :=
  Host.scatterAdd scatter_S100000_S3200000x1_S3200000_n_0_0_1
    (broadcastInDim S100000 ![] bcast_S_S100000 (constant S_ .f32 0x00000000#32))
    (dstCol e)
    (broadcastInDim S3200000 ![] bcast_S_S3200000 (constant S_ .f32 0x3F800000#32))

end Cert.Pmlp

end
-- ==== Proof.Between.lean ====
/-
  The kernel program's result as one function of its arguments. Between the two kernel regions the host gathers the
  layer-one rows along the edges and sums them per destination node, counts the incoming edges, and reshapes the two
  bias vectors into rows; the second region then applies layer two. Reading the buffers back through that stretch,
  the result array is `Pmlp.head` of the aggregated `Pmlp.lin x W1`, of the count column, and of the reshaped biases.
-/
import proofs.«162916_j14491219656875_1_alg».proof.Proof.KRun
import proofs.«162916_j14491219656875_1_alg».proof.Proof.Linear1
import proofs.«162916_j14491219656875_1_alg».proof.Proof.Stage2
import proofs.«162916_j14491219656875_1_alg».proof.Proof.Aggregate
import Idealize.ShloMosaic.Lib.StableHlo.Run

set_option maxRecDepth 16384

noncomputable section

namespace Cert.KernelIdeal.Between

open Idealize.ShloMosaic Idealize.ShloMosaic.TcCoe Idealize.SL.Sem Idealize.ShloMosaic.StableHlo
open Cert.KernelIdeal Cert.KernelIdeal.Gen Cert.KernelIdeal.RunValue

variable (m : (ℓ : Loc nD τ sig) → Buf (Elt Ideal) ℓ) (ρ : Dev nD → PrngReg)

/-! ## The first region leaves every array but its result as launched -/

theorem W1_edges (c : Dev nD) : W1 m ρ c (Proc.devRef .tc main_arg1) = m ((c : Thread nD τ).loc main_arg1) :=
  W1_of_ne m ρ c main_arg1 (by decide)
theorem W1_bias1 (c : Dev nD) : W1 m ρ c (Proc.devRef .tc main_arg3) = m ((c : Thread nD τ).loc main_arg3) :=
  W1_of_ne m ρ c main_arg3 (by decide)
theorem W1_weight2 (c : Dev nD) : W1 m ρ c (Proc.devRef .tc main_arg4) = m ((c : Thread nD τ).loc main_arg4) :=
  W1_of_ne m ρ c main_arg4 (by decide)
theorem W1_bias2 (c : Dev nD) : W1 m ρ c (Proc.devRef .tc main_arg5) = m ((c : Thread nD τ).loc main_arg5) :=
  W1_of_ne m ρ c main_arg5 (by decide)

/-- Its result is the layer-one matrix product of the launched `x` and `W1`. -/
theorem W1_features (c : Dev nD) : W1 m ρ c (Proc.devRef .tc main_v0)
    = Pmlp.lin (m ((c : Thread nD τ).loc main_arg0)) (m ((c : Thread nD τ).loc main_arg2)) :=
  (W1_linear m ρ c).trans (Linear1.final (V0 m ρ) c)

/-! ## The arrays the second region finds -/

/-- The aggregated features: the gather-and-sum of the first region's result along the edge list. -/
theorem V2_sum (c : Dev nD) : V2 m ρ c main_v14
    = Pmlp.aggSum (W1 m ρ c (Proc.devRef .tc main_v0)) (W1 m ρ c (Proc.devRef .tc main_arg1)) := by
  show StableHlo.after hostOps1 (W1 m ρ c) (Proc.devRef .tc main_v14) = _
  after_results
  rfl

/-- The edge counts, as a column. -/
theorem V2_cnt (c : Dev nD) : V2 m ρ c main_v19
    = broadcastInDim S100000x1 ![0] bcast_S100000_S100000x1_0 (Pmlp.aggCnt (W1 m ρ c (Proc.devRef .tc main_arg1))) := by
  show StableHlo.after hostOps1 (W1 m ρ c) (Proc.devRef .tc main_v19) = _
  after_results
  rfl

/-- The first bias, as a row. -/
theorem V2_bias1 (c : Dev nD) : V2 m ρ c main_v20
    = shapeCast _ (W1 m ρ c (Proc.devRef .tc main_arg3)) shapeCasts_S16_S1x16 := by
  show StableHlo.after hostOps1 (W1 m ρ c) (Proc.devRef .tc main_v20) = _
  after_results
  rfl

/-- The second bias, as a one-by-one array. -/
theorem V2_bias2 (c : Dev nD) : V2 m ρ c main_v21
    = shapeCast _ (W1 m ρ c (Proc.devRef .tc main_arg5)) shapeCasts_S1_S1x1 := by
  show StableHlo.after hostOps1 (W1 m ρ c) (Proc.devRef .tc main_v21) = _
  after_results
  rfl

/-- The second weight matrix is written by no host operation. -/
theorem V2_weight2 (c : Dev nD) : V2 m ρ c main_arg4 = W1 m ρ c (Proc.devRef .tc main_arg4) := by
  show StableHlo.after hostOps1 (W1 m ρ c) (Proc.devRef .tc main_arg4) = _
  after_results

/-! ## The result -/

/-- The kernel program's value: layer two applied to the aggregated layer-one features. -/
def value (x : (⟨S100000x58, .f32⟩ : BufTy).Contents (Elt Ideal)) (e : (⟨S2x3200000, .i32⟩ : BufTy).Contents (Elt Ideal))
    (w1 : (⟨S16x58, .f32⟩ : BufTy).Contents (Elt Ideal)) (b1 : (⟨S16, .f32⟩ : BufTy).Contents (Elt Ideal))
    (w2 : (⟨S1x16, .f32⟩ : BufTy).Contents (Elt Ideal)) (b2 : (⟨S1, .f32⟩ : BufTy).Contents (Elt Ideal)) :
    (⟨S100000x1, .f32⟩ : BufTy).Contents (Elt Ideal) :=
  Pmlp.head (Pmlp.aggSum (Pmlp.lin x w1) e)
    (broadcastInDim S100000x1 ![0] bcast_S100000_S100000x1_0 (Pmlp.aggCnt e))
    (shapeCast _ b1 shapeCasts_S16_S1x16) w2 (shapeCast _ b2 shapeCasts_S1_S1x1)

/-- The last boundary's contents at the result buffer are `value` of the launched arguments. -/
theorem result (c : Dev nD) : W3 m ρ c (Proc.devRef .tc main_v22)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W3_result, Stage2.final (V2 m ρ) c, V2_sum, V2_cnt, V2_bias1, V2_weight2, V2_bias2,
    W1_features, W1_edges, W1_bias1, W1_weight2, W1_bias2]
  rfl

/-- The run of the kernel program with its result named: every weakly fair execution terminates with the result array at
    `value` of the launched arguments, and the arguments unchanged. -/
theorem run : θ_run defs (onTc (τ := τ) (main (F := Ideal))) ⟨m, fun _ => 0, ρ⟩ (fun r => ∀ c : Dev nD,
      r.2.mem ((c.tc : Thread nD τ).loc main_v22)
        = value (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (run_named m ρ)

end Cert.KernelIdeal.Between

end
-- ==== Proof.RefValue.lean ====
/-
  The reference program's result is the same function of the arguments as the kernel program's. Read one operation at a
  time, the reference's first matrix product is `Pmlp.lin`; its gather-and-sum along the edges and its edge count are
  the very aggregation the kernel program's host stretch performs; and its second layer — the division by
  max(count, 1) broadcast along the row, the bias, the clip at zero, the contraction against the transposed weight row
  and the output bias — is `Pmlp.head` entry by entry: a contraction over one axis of length 16 is the lane sum.
  No law of the extended reals beyond reading both sides at an index is needed.
-/
import proofs.«162916_j14491219656875_1_alg».proof.Proof.Gen.ReferenceIdeal.Run
import proofs.«162916_j14491219656875_1_alg».proof.Proof.Gen.ReferenceIdeal.Read
import proofs.«162916_j14491219656875_1_alg».proof.Proof.Between
import Idealize.ShloMosaic.Lib.ValueLayout

noncomputable section

namespace Cert.ReferenceIdeal.RefValue

open Idealize.ShloMosaic Idealize.ShloMosaic.ValueIdx
open Cert.ReferenceIdeal Cert.ReferenceIdeal.Gen Cert.ReferenceIdeal.Read

/-! ## The shared pieces -/

/-- The reference's first matrix product, entry by entry, is `Pmlp.lin`. -/
theorem features_eq (x0 : (⟨S100000x58, .f32⟩ : BufTy).Contents (Elt Ideal)) (x2 : (⟨S16x58, .f32⟩ : BufTy).Contents (Elt Ideal)) :
    val_main_v1 (F := Ideal) x0 x2 = Cert.Pmlp.lin x0 x2 := by
  funext i
  rw [val_main_v1_apply]
  unfold Cert.Pmlp.lin
  refine Finset.sum_congr rfl fun k _ => ?_
  rw [val_main_v0_apply]
  refine congrArg₂ (fun a b : Ideal .f32 => a * b) (congrArg x0 ?_) (congrArg x2 ?_)
  · funext a; match a with | ⟨0, _⟩ => rfl | ⟨1, _⟩ => rfl
  · funext a; match a with | ⟨0, _⟩ => rfl | ⟨1, _⟩ => rfl

/-- The reference's gather-and-sum is the shared aggregation of its first matrix product. -/
theorem sum_eq (x0 : (⟨S100000x58, .f32⟩ : BufTy).Contents (Elt Ideal)) (x1 : (⟨S2x3200000, .i32⟩ : BufTy).Contents (Elt Ideal))
    (x2 : (⟨S16x58, .f32⟩ : BufTy).Contents (Elt Ideal)) :
    val_main_v15 (F := Ideal) x0 x1 x2 = Cert.Pmlp.aggSum (Cert.Pmlp.lin x0 x2) x1 := by
  rw [← features_eq]
  rfl

/-- The reference's edge count is the shared count. -/
theorem cnt_eq (x1 : (⟨S2x3200000, .i32⟩ : BufTy).Contents (Elt Ideal)) :
    val_main_v19 (F := Ideal) x1 = Cert.Pmlp.aggCnt x1 := rfl

/-! ## The indices the layout operations read -/

theorem idx_row (r : Fin 100000) (k : Fin 16) : lidx_main_v30 (ix2 r (0 : Fin 1)) k = ix2 r k := by
  funext a; match a with | ⟨0, _⟩ => rfl | ⟨1, _⟩ => rfl
theorem idx_cnt (r : Fin 100000) (k : Fin 16) : idx_main_v22 (idx_main_v23 (ix2 r k)) = ix1 r := by
  funext a; match a with | ⟨0, _⟩ => rfl
theorem idx_bias (r : Fin 100000) (k : Fin 16) : idx_main_v25 (idx_main_v26 (ix2 r k)) = ix1 k := by
  funext a; match a with | ⟨0, _⟩ => rfl
theorem idx_weight (r : Fin 100000) (k : Fin 16) : idx_main_v29 (ridx_main_v30 (ix2 r (0 : Fin 1)) k) = ix2 (0 : Fin 1) k := by
  funext a; match a with | ⟨0, _⟩ => rfl | ⟨1, _⟩ => rfl
theorem idx_out (r : Fin 100000) : idx_main_v31 (idx_main_v32 (ix2 r (0 : Fin 1))) = ix1 (0 : Fin 1) := by
  funext a; match a with | ⟨0, _⟩ => rfl

/-- A vector `[a]` laid out as a column `[a, 1]` reads, at `(p, 0)`, the vector's entry `p`. -/
theorem broadcastInDim_col_apply (v : (⟨S100000, .f32⟩ : BufTy).Contents (Elt Ideal)) (p : Fin 100000) :
    broadcastInDim S100000x1 ![0] bcast_S100000_S100000x1_0 v (ix2 p (0 : Fin 1)) = v (ix1 p) :=
  broadcastInDim_apply _ bcast_S100000_S100000x1_0 v (ix2 p (0 : Fin 1)) (ix1 p) (fun a => match a with
    | ⟨0, _⟩ => by show p.val = if (100000 : Nat) = 1 then 0 else p.val; rw [if_neg (by decide)])

/-! ## The result -/

/-- The reference's result, as a function of its arguments, is the kernel program's `value`. -/
theorem value_eq (x0 : (⟨S100000x58, .f32⟩ : BufTy).Contents (Elt Ideal)) (x1 : (⟨S2x3200000, .i32⟩ : BufTy).Contents (Elt Ideal))
    (x2 : (⟨S16x58, .f32⟩ : BufTy).Contents (Elt Ideal)) (x3 : (⟨S16, .f32⟩ : BufTy).Contents (Elt Ideal))
    (x4 : (⟨S1x16, .f32⟩ : BufTy).Contents (Elt Ideal)) (x5 : (⟨S1, .f32⟩ : BufTy).Contents (Elt Ideal)) :
    val_main_v33 (F := Ideal) x0 x1 x2 x3 x4 x5 = Cert.KernelIdeal.Between.value x0 x1 x2 x3 x4 x5 := by
  funext i
  obtain ⟨r, z, rfl⟩ : ∃ (r : Fin 100000) (z : Fin 1), i = ix2 r z := ⟨i 0, i 1, eq_ix2 i⟩
  obtain rfl : z = 0 := Fin.ext (by have := z.isLt; omega)
  rw [val_main_v33_apply, val_main_v30_apply, val_main_v32_apply, val_main_v31_apply, idx_out]
  unfold Cert.KernelIdeal.Between.value Cert.Pmlp.head Cert.Pmlp.headRow
  refine congrArg₂ (fun a b : Ideal .f32 => a + b) (Finset.sum_congr rfl fun k _ => ?_) ?_
  · rw [val_main_v28_apply, val_main_v27_apply, val_main_v24_apply, val_main_v26_apply, val_main_v25_apply,
      val_main_v23_apply, val_main_v22_apply, val_main_v21_apply, val_main_v29_apply, val_main_call0_v0_apply,
      val_main_call0_cst_apply, val_main_v20_apply, val_main_cst_3_apply, sum_eq, cnt_eq,
      idx_row, idx_cnt, idx_bias, idx_weight]
    exact congrArg₂ (fun a b : Ideal .f32 =>
        max (Ideal.div (Cert.Pmlp.aggSum (Cert.Pmlp.lin x0 x2) x1 (ix2 r k)) (max a (Ideal.ofBits .f32 0x3F800000#32)) + b)
          (Ideal.ofBits .f32 0x00000000#32) * x4 (ix2 (0 : Fin 1) k))
      (broadcastInDim_col_apply (Cert.Pmlp.aggCnt x1) r).symm (shapeCast_a_1a_apply x3 _ (0 : Fin 1) k).symm
  · exact (shapeCast_a_1a_apply x5 _ (0 : Fin 1) (0 : Fin 1)).symm

end Cert.ReferenceIdeal.RefValue

end
-- ==== Proof.lean ====
/-
  A two-layer network over a graph: `x · W1ᵀ`, a mean over incoming edges, bias and clip at zero, then `· W2ᵀ + b2`.
  The kernel program does layer one in a first kernel region (row blocks of 10000, a matrix product per block), gathers
  and sums along the edges on the host, and does the division by max(count, 1), the bias, the clip and layer two in a
  second kernel region (a lane sum per row). The reference does all of it on the host.

  Over the extended reals the two results are one function of the arguments (`Between.value`): a matrix product block by
  block is the matrix product; the edge aggregation is the same text on both sides and stays closed; a contraction over
  one axis of length 16 is the lane sum. No finiteness of the inputs is used. The idealization pass rewrote nothing, so
  the idealized kernel is the kernel's own text read over the extended reals.
-/
import proofs.«162916_j14491219656875_1_alg».proof.Defs
import proofs.«162916_j14491219656875_1_alg».proof.Proof.Gen.Kernel
import proofs.«162916_j14491219656875_1_alg».proof.Proof.Gen.Kernel.Skeleton
import proofs.«162916_j14491219656875_1_alg».proof.Proof.Gen.Kernel.Launch
import proofs.«162916_j14491219656875_1_alg».proof.Proof.Gen.Kernel.Points
import proofs.«162916_j14491219656875_1_alg».proof.Proof.Gen.Kernel.Frame
import proofs.«162916_j14491219656875_1_alg».proof.Proof.Gen.KernelIdeal
import proofs.«162916_j14491219656875_1_alg».proof.Proof.Gen.KernelIdeal.Skeleton
import proofs.«162916_j14491219656875_1_alg».proof.Proof.Gen.KernelIdeal.Launch
import proofs.«162916_j14491219656875_1_alg».proof.Proof.Gen.KernelIdeal.Points
import proofs.«162916_j14491219656875_1_alg».proof.Proof.Gen.KernelIdeal.Frame
import proofs.«162916_j14491219656875_1_alg».proof.Proof.Gen.ReferenceIdeal
import proofs.«162916_j14491219656875_1_alg».proof.Proof.Gen.ReferenceIdeal.Run
import proofs.«162916_j14491219656875_1_alg».proof.Proof.Gen.ReferenceIdeal.Read
import proofs.«162916_j14491219656875_1_alg».proof.Proof.Gen.Pre_finite_inputs
import proofs.«162916_j14491219656875_1_alg».proof.Proof.Between
import proofs.«162916_j14491219656875_1_alg».proof.Proof.RefValue
import Idealize.ShloMosaic.Adequacy
import Idealize.ShloMosaic.Init

noncomputable section

namespace Cert.Proof

open Idealize.ShloMosaic Idealize.SL.Sem

/-- The kernel program runs and leaves its arguments alone, read at the machine's words. -/
theorem frame_kernel : Cert.frame_Kernel := fun m ρ _ => Cert.Kernel.Gen.frame m ρ

/-- The same program read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `Between.value` of the arguments they agree on. -/
theorem algebraic : Cert.algebraic_KernelIdeal_ReferenceIdeal := by
  intro m ρ m' ρ' _ hagree
  refine ⟨_, Cert.KernelIdeal.Between.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v33_eq _ _ _ _ _ _).trans ?_
  refine (Cert.ReferenceIdeal.RefValue.value_eq _ _ _ _ _ _).trans ?_
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
